-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4x4096x8 : Shape := ⟨3, ![4, 4096, 8]⟩
abbrev S4096x4096 : Shape := ⟨2, ![4096, 4096]⟩
abbrev S4096 : Shape := ⟨1, ![4096]⟩
abbrev S4096x8 : Shape := ⟨2, ![4096, 8]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4x4096x8 : S_.BroadcastsInDim S4x4096x8 (![] : Fin 0 → Fin S4x4096x8.rank)
  reducesTo_S4x4096x8_S_d0_1_2 : S4x4096x8.ReducesTo [0, 1, 2] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg4 : FVec F S4096x8 .f32) (main_arg5 : FVec F S4096x8 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x8 .f32 := Host.absf main_arg4
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  let main_v24 : FVec F S4096x8 .f32 := Host.absf main_arg5
  let main_cst_8 : FVec F S_ .f32 := constant S_ .f32 0x7F800000#32
  let main_v25 : FVec F S4096x8 .f32 := broadcastInDim S4096x8 ![] bcast_S_S4096x8 main_cst_8
  let main_v26 : IVec S4096x8 1 := cmpf .olt main_v24 main_v25
  let main_c_9 : IVec S_ 1 := constantI S_ 1 1#1
  let main_v27 : IVec S_ 1 := (fun x v => Host.reduce IntOp.andi x v reducesTo_S4096x8_S_d0_1 h_S_) main_v26 main_c_9
  let main_v28 : IVec S_ 1 := andi main_v23 main_v27
  main_v28

def fn {F : FTy → Type} [FloatOps F] (main_arg0 : FVec F S4x4096x4096 .f32) (main_arg1 : FVec F S4x4096x8 .f32) (main_arg2 : FVec F S4096x4096 .f32) (main_arg3 : FVec F S4096 .f32) (main_arg4 : FVec F S4096x8 .f32) (main_arg5 : FVec F S4096x8 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4x4096x8 .f32 := Host.absf main_arg1
  let main_cst_0 : FVec F S_ .f32 := constant S_ .f32 0x7F800000#32
  let main_v5 : FVec F S4x4096x8 .f32 := broadcastInDim S4x4096x8 ![] bcast_S_S4x4096x8 main_cst_0
  let main_v6 : IVec S4x4096x8 1 := cmpf .olt main_v4 main_v5
  let main_c_1 : IVec S_ 1 := constantI S_ 1 1#1
  let main_v7 : IVec S_ 1 := (fun x v => Host.reduce IntOp.andi x v reducesTo_S4x4096x8_S_d0_1_2 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S4x4096x4096 : Shape := ⟨3, ![4, 4096, 4096]⟩
abbrev S4x4096x8 : Shape := ⟨3, ![4, 4096, 8]⟩
abbrev S4096x4096 : Shape := ⟨2, ![4096, 4096]⟩
abbrev S4096 : Shape := ⟨1, ![4096]⟩
abbrev S4096x8 : Shape := ⟨2, ![4096, 8]⟩
abbrev S16384x4096 : Shape := ⟨2, ![16384, 4096]⟩
abbrev S16384x8 : Shape := ⟨2, ![16384, 8]⟩
abbrev S8x4096 : Shape := ⟨2, ![8, 4096]⟩
abbrev S1x4096 : Shape := ⟨2, ![1, 4096]⟩
abbrev S2048x256 : Shape := ⟨2, ![2048, 256]⟩
abbrev S2048x8 : Shape := ⟨2, ![2048, 8]⟩
abbrev S256x1024 : Shape := ⟨2, ![256, 1024]⟩
abbrev S1x1024 : Shape := ⟨2, ![1, 1024]⟩
abbrev S256x8 : Shape := ⟨2, ![256, 8]⟩
abbrev S8x1024 : Shape := ⟨2, ![8, 1024]⟩
abbrev S2048x1024 : Shape := ⟨2, ![2048, 1024]⟩

abbrev nBuf : Space → Nat
  | .hbm => 13
  | .vmem => 16
  | .smem => 0
  | _ => 0

abbrev bufTy : (tb : Table) → Fin (tcTables nBuf tb) → BufTy
  | .hbm, ⟨0, _⟩ => ⟨S4x4096x4096, .f32⟩
  | .hbm, ⟨1, _⟩ => ⟨S4x4096x8, .f32⟩
  | .hbm, ⟨2, _⟩ => ⟨S4096x4096, .f32⟩
  | .hbm, ⟨3, _⟩ => ⟨S4096, .f32⟩
  | .hbm, ⟨4, _⟩ => ⟨S4096x8, .f32⟩
  | .hbm, ⟨5, _⟩ => ⟨S4096x8, .f32⟩
  | .hbm, ⟨6, _⟩ => ⟨S16384x4096, .f32⟩
  | .hbm, ⟨7, _⟩ => ⟨S16384x8, .f32⟩
  | .hbm, ⟨8, _⟩ => ⟨S4096x4096, .f32⟩
  | .hbm, ⟨9, _⟩ => ⟨S8x4096, .f32⟩
  | .hbm, ⟨10, _⟩ => ⟨S1x4096, .f32⟩
  | .hbm, ⟨11, _⟩ => ⟨S16384x4096, .f32⟩
  | .hbm, ⟨12, _⟩ => ⟨S4x4096x4096, .f32⟩
  | .local _ .vmem, ⟨0, _⟩ => ⟨S2048x256, .f32⟩
  | .local _ .vmem, ⟨1, _⟩ => ⟨S2048x256, .f32⟩
  | .local _ .vmem, ⟨2, _⟩ => ⟨S2048x8, .f32⟩
  | .local _ .vmem, ⟨3, _⟩ => ⟨S2048x8, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x8, .f32⟩
  | .local _ .vmem, ⟨9, _⟩ => ⟨S256x8, .f32⟩
  | .local _ .vmem, ⟨10, _⟩ => ⟨S8x1024, .f32⟩
  | .local _ .vmem, ⟨11, _⟩ => ⟨S8x1024, .f32⟩
  | .local _ .vmem, ⟨12, _⟩ => ⟨S2048x1024, .f32⟩
  | .local _ .vmem, ⟨13, _⟩ => ⟨S2048x1024, .f32⟩
  | .local _ .vmem, ⟨14, _⟩ => ⟨S2048x1024, .f32⟩
  | .local _ .vmem, ⟨15, _⟩ => ⟨S2048x8, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 16], ![false, false, false]⟩

def k0_cond2 (i : grid0.Coords) : BitVec 1 :=
  let arg2 : BitVec 32 := BitVec.ofNat 32 (i 2).val
  let c15_i32 : BitVec 32 := 15#32
  let v23 : BitVec 1 := Scalar.cmpi .eq arg2 c15_i32
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S256x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S4x4096x4096_S16384x4096 : S4x4096x4096.ShapeCasts S16384x4096
  shapeCasts_S4x4096x8_S16384x8 : S4x4096x8.ShapeCasts S16384x8
  transposes_S4096x4096_S4096x4096_1_0 : S4096x4096.Transposes [1, 0] S4096x4096
  transposes_S4096x8_S8x4096_1_0 : S4096x8.Transposes [1, 0] S8x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x8_S256x8_0_0 : ∀ a, (![0, 0] : Fin 2 → Nat) a + S256x8.size a ≤ S256x8.size a
  h_S256x8 : 0 < S256x8.numel
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S16384x4096_S4x4096x4096 : S16384x4096.ShapeCasts S4x4096x4096
  dot_S2048x256_S256x1024_S2048x1024_1_0_0_1_n_n_wf : DotDims.WF S2048x256 S256x1024 S2048x1024 [1] [0] [0] [1] [] []
  dot_S2048x256_S256x8_S2048x8_1_0_0_1_n_n_wf : DotDims.WF S2048x256 S256x8 S2048x8 [1] [0] [0] [1] [] []
  dot_S2048x8_S8x1024_S2048x1024_1_0_0_1_n_n_wf : DotDims.WF S2048x8 S8x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x4096.size a
  hwx0_0 : ∀ i : grid0.Coords, EltTy.bits .f32 = 32 ∨ (Rect.block (s := S16384x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x8.size a ≤ S16384x8.size a
  hwx0_1 : ∀ i : grid0.Coords, EltTy.bits .f32 = 32 ∨ (Rect.block (s := S16384x8) S2048x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x4096.size a
  hwx0_2 : ∀ i : grid0.Coords, EltTy.bits .f32 = 32 ∨ (Rect.block (s := S4096x4096) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x8.size a ≤ S4096x8.size a
  hwx0_4 : ∀ i : grid0.Coords, EltTy.bits .f32 = 32 ∨ (Rect.block (s := S4096x8) S256x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1024.size a ≤ S8x4096.size a
  hwx0_5 : ∀ i : grid0.Coords, EltTy.bits .f32 = 32 ∨ (Rect.block (s := S8x4096) S8x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1024.size a ≤ S16384x4096.size a
  hwx0_6 : ∀ i : grid0.Coords, EltTy.bits .f32 = 32 ∨ (Rect.block (s := S16384x4096) S2048x1024.size (cc0_transform_6 i) (hinb0_6 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S2048x256_S256x8_S2048x8_1_0_0_1_n_n : DotDims S2048x256 S256x8 S2048x8 where
  lhsContracting := [1]
  rhsContracting := [0]
  lhsNonContracting := [0]
  rhsNonContracting := [1]
  lhsBatch := []
  rhsBatch := []
  wf := dot_S2048x256_S256x8_S2048x8_1_0_0_1_n_n_wf
def dot_S2048x8_S8x1024_S2048x1024_1_0_0_1_n_n : DotDims S2048x8 S8x1024 S2048x1024 where
  lhsContracting := [1]
  rhsContracting := [0]
  lhsNonContracting := [0]
  rhsNonContracting := [1]
  lhsBatch := []
  rhsBatch := []
  wf := dot_S2048x8_S8x1024_S2048x1024_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S8x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S2048x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4x4096x8 : Shape := ⟨3, ![4, 4096, 8]⟩
abbrev S4096x4096 : Shape := ⟨2, ![4096, 4096]⟩
abbrev S4096 : Shape := ⟨1, ![4096]⟩
abbrev S4096x8 : Shape := ⟨2, ![4096, 8]⟩
abbrev S1x1x4096 : Shape := ⟨3, ![1, 1, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x8, .f32⟩
  | .hbm, ⟨2, _⟩ => ⟨S4096x4096, .f32⟩
  | .hbm, ⟨3, _⟩ => ⟨S4096, .f32⟩
  | .hbm, ⟨4, _⟩ => ⟨S4096x8, .f32⟩
  | .hbm, ⟨5, _⟩ => ⟨S4096x8, .f32⟩
  | .hbm, ⟨6, _⟩ => ⟨S4x4096x4096, .f32⟩
  | .hbm, ⟨7, _⟩ => ⟨S1x1x4096, .f32⟩
  | .hbm, ⟨8, _⟩ => ⟨S4x4096x4096, .f32⟩
  | .hbm, ⟨9, _⟩ => ⟨S4x4096x4096, .f32⟩
  | .hbm, ⟨10, _⟩ => ⟨S4x4096x8, .f32⟩
  | .hbm, ⟨11, _⟩ => ⟨S4x4096x8, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S4096x8_S4x4096x8_2_0_01_1_n_n_wf : DotDims.WF S4x4096x4096 S4096x8 S4x4096x8 [2] [0] [0, 1] [1] [] []
  dot_S4x4096x8_S4096x8_S4x4096x4096_2_1_01_0_n_n_wf : DotDims.WF S4x4096x8 S4096x8 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S4096x8_S4x4096x8_2_0_01_1_n_n : DotDims S4x4096x4096 S4096x8 S4x4096x8 where
  lhsContracting := [2]
  rhsContracting := [0]
  lhsNonContracting := [0, 1]
  rhsNonContracting := [1]
  lhsBatch := []
  rhsBatch := []
  wf := dot_S4x4096x4096_S4096x8_S4x4096x8_2_0_01_1_n_n_wf
def dot_S4x4096x8_S4096x8_S4x4096x4096_2_1_01_0_n_n : DotDims S4x4096x8 S4096x8 S4x4096x4096 where
  lhsContracting := [2]
  rhsContracting := [1]
  lhsNonContracting := [0, 1]
  rhsNonContracting := [0]
  lhsBatch := []
  rhsBatch := []
  wf := dot_S4x4096x8_S4096x8_S4x4096x4096_2_1_01_0_n_n_wf

class Facts : Prop extends Facts₀ where

variable [Facts]
-- ==== Proof.Spec.lean ====
/-
  The value both programs compute, as one function of the six argument arrays over the extended reals.

  With R = 4096·b + s the row of the flattened [16384, 4096] activation matrix,

    out(R, o) = (Σ_{d<4096} x[R, d] · W[o, d] + bias[o]) + (Σ_{r<8} ((Σ_{d<4096} x[R, d] · V[d, r]) · codes[R, r]) · U[o, r]) · 2 .

  Every array is addressed here by NATURAL-NUMBER coordinates (zero outside its extents), so that the sums run over
  `Finset.range`: the sum over the 4096 contracted positions then splits into its 16 consecutive runs of 256 by
  `Finset.sum_range_add` alone, which is the only law the blocked accumulation needs (addition on the extended reals is
  commutative and associative; no distributivity, no finiteness).
-/
import Idealize.ShloMosaic.PureOps.Ideal.Laws
import Idealize.ShloMosaic.Lib.ValueIdx

noncomputable section

namespace Cert.Lora

open Idealize.ShloMosaic Idealize.ShloMosaic.ValueIdx

abbrev A3 : Shape := ⟨3, ![4, 4096, 4096]⟩
abbrev C3 : Shape := ⟨3, ![4, 4096, 8]⟩
abbrev M2 : Shape := ⟨2, ![4096, 4096]⟩
abbrev B1 : Shape := ⟨1, ![4096]⟩
abbrev L2 : Shape := ⟨2, ![4096, 8]⟩

theorem ix3_congr {n0 n1 n2 : Nat} {a a' : Fin n0} {b b' : Fin n1} {c c' : Fin n2} (h0 : a = a') (h1 : b = b') (h2 : c = c') :
    ix3 a b c = ix3 a' b' c' := by subst h0 h1 h2; rfl

theorem ix2_congr {n0 n1 : Nat} {a a' : Fin n0} {b b' : Fin n1} (h0 : a = a') (h1 : b = b') :
    ix2 a b = ix2 a' b' := by subst h0 h1; rfl

/-- `x[R / 4096, R % 4096, d]`: the activations at row `R` of the flattened matrix, column `d`. -/
def xAt (x : A3.Idx → EReal) (R d : ℕ) : EReal :=
  if h : R < 16384 ∧ d < 4096 then x (ix3 ⟨R / 4096, by omega⟩ ⟨R % 4096, Nat.mod_lt _ (by norm_num)⟩ ⟨d, h.2⟩) else 0

/-- `codes[R / 4096, R % 4096, r]`. -/
def cAt (cd : C3.Idx → EReal) (R r : ℕ) : EReal :=
  if h : R < 16384 ∧ r < 8 then cd (ix3 ⟨R / 4096, by omega⟩ ⟨R % 4096, Nat.mod_lt _ (by norm_num)⟩ ⟨r, h.2⟩) else 0

/-- `W[o, d]`, addressed as the transposed matrix: row `d`, column `o`. -/
def wAt (W : M2.Idx → EReal) (d o : ℕ) : EReal :=
  if h : d < 4096 ∧ o < 4096 then W (ix2 ⟨o, h.2⟩ ⟨d, h.1⟩) else 0

/-- `bias[o]`. -/
def bAt (bs : B1.Idx → EReal) (o : ℕ) : EReal :=
  if h : o < 4096 then bs (ix1 ⟨o, h⟩) else 0

/-- `V[d, r]`. -/
def vAt (V : L2.Idx → EReal) (d r : ℕ) : EReal :=
  if h : d < 4096 ∧ r < 8 then V (ix2 ⟨d, h.1⟩ ⟨r, h.2⟩) else 0

/-- `U[o, r]`, addressed as the transposed matrix: row `r`, column `o`. -/
def uAt (U : L2.Idx → EReal) (r o : ℕ) : EReal :=
  if h : r < 8 ∧ o < 4096 then U (ix2 ⟨o, h.2⟩ ⟨r, h.1⟩) else 0

theorem xAt_eq (x : A3.Idx → EReal) (b : Fin 4) (s : Fin 4096) (d : Fin 4096) :
    xAt x (4096 * b.val + s.val) d.val = x (ix3 b s d) := by
  unfold xAt
  rw [dif_pos ⟨by have := b.isLt; have := s.isLt; omega, d.isLt⟩]
  exact congrArg x (ix3_congr (Fin.ext (by show (4096 * b.val + s.val) / 4096 = b.val; have := s.isLt; omega))
    (Fin.ext (by show (4096 * b.val + s.val) % 4096 = s.val; have := s.isLt; omega)) rfl)

theorem cAt_eq (cd : C3.Idx → EReal) (b : Fin 4) (s : Fin 4096) (r : Fin 8) :
    cAt cd (4096 * b.val + s.val) r.val = cd (ix3 b s r) := by
  unfold cAt
  rw [dif_pos ⟨by have := b.isLt; have := s.isLt; omega, r.isLt⟩]
  exact congrArg cd (ix3_congr (Fin.ext (by show (4096 * b.val + s.val) / 4096 = b.val; have := s.isLt; omega))
    (Fin.ext (by show (4096 * b.val + s.val) % 4096 = s.val; have := s.isLt; omega)) rfl)

theorem wAt_eq (W : M2.Idx → EReal) (d o : Fin 4096) : wAt W d.val o.val = W (ix2 o d) := by
  unfold wAt; rw [dif_pos ⟨d.isLt, o.isLt⟩]

theorem bAt_eq (bs : B1.Idx → EReal) (o : Fin 4096) : bAt bs o.val = bs (ix1 o) := by
  unfold bAt; rw [dif_pos o.isLt]

theorem vAt_eq (V : L2.Idx → EReal) (d : Fin 4096) (r : Fin 8) : vAt V d.val r.val = V (ix2 d r) := by
  unfold vAt; rw [dif_pos ⟨d.isLt, r.isLt⟩]

theorem uAt_eq (U : L2.Idx → EReal) (r : Fin 8) (o : Fin 4096) : uAt U r.val o.val = U (ix2 o r) := by
  unfold uAt; rw [dif_pos ⟨r.isLt, o.isLt⟩]

/-- The scaling factor, as the word both programs print. -/
def two : EReal := Ideal.ofBits .f32 0x40000000#32

/-- The first `n` terms of row `R` of `x` against column `o` of `Wᵀ`. -/
def dotW (x : A3.Idx → EReal) (W : M2.Idx → EReal) (R o n : ℕ) : EReal := ∑ d ∈ Finset.range n, xAt x R d * wAt W d o

/-- The first `n` terms of row `R` of `x` against column `r` of `V`. -/
def dotV (x : A3.Idx → EReal) (V : L2.Idx → EReal) (R r n : ℕ) : EReal := ∑ d ∈ Finset.range n, xAt x R d * vAt V d r

/-- A partial dot product grows by one run of 256 consecutive terms. -/
theorem sum_run (f : ℕ → EReal) (k : ℕ) :
    ∑ d ∈ Finset.range (256 * (k + 1)), f d = ∑ d ∈ Finset.range (256 * k), f d + ∑ e ∈ Finset.range 256, f (256 * k + e) := by
  rw [show 256 * (k + 1) = 256 * k + 256 by ring, Finset.sum_range_add]

theorem dotW_zero (x : A3.Idx → EReal) (W : M2.Idx → EReal) (R o : ℕ) : dotW x W R o (256 * 0) = 0 := by
  unfold dotW; rw [Nat.mul_zero, Finset.sum_range_zero]

theorem dotV_zero (x : A3.Idx → EReal) (V : L2.Idx → EReal) (R r : ℕ) : dotV x V R r (256 * 0) = 0 := by
  unfold dotV; rw [Nat.mul_zero, Finset.sum_range_zero]

/-- One accumulation step of the base product: run `k` of 256 terms on top of the first `k` runs. -/
theorem dotW_step (x : A3.Idx → EReal) (W : M2.Idx → EReal) (R o k : ℕ) (prev : EReal) (h : prev = dotW x W R o (256 * k)) :
    prev + ∑ e : Fin 256, xAt x R (256 * k + e.val) * wAt W (256 * k + e.val) o = dotW x W R o (256 * (k + 1)) := by
  unfold dotW at h ⊢
  rw [sum_run, h, Fin.sum_univ_eq_sum_range (fun e => xAt x R (256 * k + e) * wAt W (256 * k + e) o) 256]

/-- One accumulation step of the low-rank product. -/
theorem dotV_step (x : A3.Idx → EReal) (V : L2.Idx → EReal) (R r k : ℕ) (prev : EReal) (h : prev = dotV x V R r (256 * k)) :
    prev + ∑ e : Fin 256, xAt x R (256 * k + e.val) * vAt V (256 * k + e.val) r = dotV x V R r (256 * (k + 1)) := by
  unfold dotV at h ⊢
  rw [sum_run, h, Fin.sum_univ_eq_sum_range (fun e => xAt x R (256 * k + e) * vAt V (256 * k + e) r) 256]

/-- The result at row `R` of the flattened output, column `o`. -/
def out (x : A3.Idx → EReal) (cd : C3.Idx → EReal) (W : M2.Idx → EReal) (bs : B1.Idx → EReal) (V U : L2.Idx → EReal) (R o : ℕ) : EReal :=
  (dotW x W R o 4096 + bAt bs o) + (∑ r ∈ Finset.range 8, (dotV x V R r 4096 * cAt cd R r) * uAt U r o) * two

/-- The result with its rank sum over `Fin 8`, the scaling factor as the printed word. -/
theorem out_fin (x : A3.Idx → EReal) (cd : C3.Idx → EReal) (W : M2.Idx → EReal) (bs : B1.Idx → EReal) (V U : L2.Idx → EReal) (R o : ℕ) :
    (dotW x W R o 4096 + bAt bs o) + (∑ r : Fin 8, (dotV x V R r.val 4096 * cAt cd R r.val) * uAt U r.val o) * Ideal.ofBits .f32 0x40000000#32
      = out x cd W bs V U R o := by
  unfold out two
  rw [Fin.sum_univ_eq_sum_range (fun r => (dotV x V R r 4096 * cAt cd R r) * uAt U r o) 8]

/-- The result as the [4, 4096, 4096] array. -/
def G (x : A3.Idx → EReal) (cd : C3.Idx → EReal) (W : M2.Idx → EReal) (bs : B1.Idx → EReal) (V U : L2.Idx → EReal) : A3.Idx → EReal :=
  fun j => out x cd W bs V U (4096 * (j 0).val + (j 1).val) (j 2).val

/-- `G` at `(b, s, o)` in the reference's own spelling: three contractions over `Fin`. -/
theorem G_ix3 (x : A3.Idx → EReal) (cd : C3.Idx → EReal) (W : M2.Idx → EReal) (bs : B1.Idx → EReal) (V U : L2.Idx → EReal)
    (b : Fin 4) (s : Fin 4096) (o : Fin 4096) :
    G x cd W bs V U (ix3 b s o)
      = ((∑ d : Fin 4096, x (ix3 b s d) * W (ix2 o d)) + bs (ix1 o))
        + (∑ r : Fin 8, ((∑ d : Fin 4096, x (ix3 b s d) * V (ix2 d r)) * cd (ix3 b s r)) * U (ix2 o r)) * two := by
  unfold G
  have e0 : ((ix3 b s o : A3.Idx) 0).val = b.val := rfl
  have e1 : ((ix3 b s o : A3.Idx) 1).val = s.val := rfl
  have e2 : ((ix3 b s o : A3.Idx) 2).val = o.val := rfl
  rw [e0, e1, e2]
  unfold out dotW dotV
  rw [← Fin.sum_univ_eq_sum_range (fun d => xAt x (4096 * b.val + s.val) d * wAt W d o.val) 4096,
    ← Fin.sum_univ_eq_sum_range (fun r => (∑ d ∈ Finset.range 4096, xAt x (4096 * b.val + s.val) d * vAt V d r) * cAt cd (4096 * b.val + s.val) r * uAt U r o.val) 8,
    bAt_eq]
  refine congrArg₂ (· + ·) (congrArg (· + bs (ix1 o)) ?_) (congrArg (· * two) ?_)
  · exact Finset.sum_congr rfl fun d _ => by rw [xAt_eq, wAt_eq]
  · refine Finset.sum_congr rfl fun r _ => ?_
    rw [← Fin.sum_univ_eq_sum_range (fun d => xAt x (4096 * b.val + s.val) d * vAt V d r.val) 4096, cAt_eq, uAt_eq]
    refine congrArg (· * U (ix2 o r)) (congrArg (· * cd (ix3 b s r)) ?_)
    exact Finset.sum_congr rfl fun d _ => by rw [xAt_eq, vAt_eq]

end Cert.Lora

end
-- ==== Proof.RefValue.lean ====
/-
  The reference's result is the specification `Cert.Lora.G` of its six arguments.

  Read one operation at a time at an index `(b, s, o)`: the base product contracts `x[b, s, ·]` with `W[o, ·]` and adds
  `bias[o]` (a broadcast along the two leading axes); the low-rank product contracts `x[b, s, ·]` with `V[·, r]`, scales
  by `codes[b, s, r]`, contracts over `r` with `U[o, ·]` and doubles. These are the three sums of `Cert.Lora.G_ix3`.
-/
import proofs.«180259_j57226144252251_1_alg».proof.Proof.Gen.ReferenceIdeal.Run
import proofs.«180259_j57226144252251_1_alg».proof.Proof.Gen.ReferenceIdeal.Read
import proofs.«180259_j57226144252251_1_alg».proof.Proof.Spec

noncomputable section

namespace Cert.ReferenceIdeal.RefValue

open Cert.ReferenceIdeal Cert.ReferenceIdeal.Read Idealize.ShloMosaic Idealize.ShloMosaic.ValueIdx Cert.Lora

theorem l0 (b : Fin 4) (s o k : Fin 4096) : lidx_main_v0 (ix3 b s o) k = ix3 b s k :=
  funext fun a => match a with | ⟨0, _⟩ => rfl | ⟨1, _⟩ => rfl | ⟨2, _⟩ => rfl
theorem r0 (b : Fin 4) (s o k : Fin 4096) : ridx_main_v0 (ix3 b s o) k = ix2 o k :=
  funext fun a => match a with | ⟨0, _⟩ => rfl | ⟨1, _⟩ => rfl
theorem i12 (b : Fin 4) (s o : Fin 4096) : idx_main_v1 (idx_main_v2 (ix3 b s o)) = ix1 o :=
  funext fun a => match a with | ⟨0, _⟩ => rfl
theorem l6 (b : Fin 4) (s o : Fin 4096) (r : Fin 8) : lidx_main_v6 (ix3 b s o) r = ix3 b s r :=
  funext fun a => match a with | ⟨0, _⟩ => rfl | ⟨1, _⟩ => rfl | ⟨2, _⟩ => rfl
theorem r6 (b : Fin 4) (s o : Fin 4096) (r : Fin 8) : ridx_main_v6 (ix3 b s o) r = ix2 o r :=
  funext fun a => match a with | ⟨0, _⟩ => rfl | ⟨1, _⟩ => rfl
theorem l4 (b : Fin 4) (s : Fin 4096) (r : Fin 8) (k : Fin 4096) : lidx_main_v4 (ix3 b s r) k = ix3 b s k :=
  funext fun a => match a with | ⟨0, _⟩ => rfl | ⟨1, _⟩ => rfl | ⟨2, _⟩ => rfl
theorem r4 (b : Fin 4) (s : Fin 4096) (r : Fin 8) (k : Fin 4096) : ridx_main_v4 (ix3 b s r) k = ix2 k r :=
  funext fun a => match a with | ⟨0, _⟩ => rfl | ⟨1, _⟩ => rfl

/-- The reference's last stage is `G` of the arguments, index by index. -/
theorem ref_eq_G (x0 : A3.Idx → EReal) (x1 : C3.Idx → EReal) (x2 : M2.Idx → EReal) (x3 : B1.Idx → EReal) (x4 x5 : L2.Idx → EReal) :
    val_main_v9 (F := Ideal) x0 x1 x2 x3 x4 x5 = G x0 x1 x2 x3 x4 x5 := by
  funext i
  obtain ⟨b, s, o, rfl⟩ : ∃ (b : Fin 4) (s : Fin 4096) (o : Fin 4096), i = ix3 b s o := ⟨i 0, i 1, i 2, eq_ix3 i⟩
  rw [G_ix3, val_main_v9_apply, val_main_v3_apply, val_main_v8_apply, val_main_v0_apply, val_main_v2_apply, val_main_v1_apply,
    val_main_v6_apply, val_main_v7_apply, val_main_cst_apply]
  simp only [val_main_v5_apply, val_main_v4_apply, l0, r0, i12, l6, r6, l4, r4, Ideal.addf_def, Ideal.mulf_def, Ideal.ofBits_def]
  rfl

end Cert.ReferenceIdeal.RefValue

end
-- ==== Proof.KPieces.lean ====
/-
  What each control case of the body leaves behind, as values of its loads.

  The body has three cases by the reduction coordinate k. At k = 0 both accumulators are first set to zero and then
  receive the first partial products; at 0 < k they receive the next partial products on top of what the previous
  point left; at k = 15 the output block is, besides, assembled from the two finished accumulators. Each buffer is
  written by whole-buffer stores, so what it holds afterwards is the last store's payload, with every load of a buffer
  stored earlier in the same run read back as that store's payload.
-/
import proofs.«180259_j57226144252251_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.LoraValue

open Cert.KernelIdeal Cert.KernelIdeal.Gen

variable {F : FTy → Type} [FloatOps F]

/-- The zero offset of a whole-buffer access. -/
theorem hz : (![0, 0] : Fin 2 → Nat) = fun _ => 0 := funext fun a => by fin_cases a <;> rfl

theorem accA (c : Dev nD) (i : grid0.Coords) (arg3 : Memref sig .tc .vmem S2048x256 .f32) (harg3 : arg3.IsWhole) (arg4 : Memref sig .tc .vmem S2048x8 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S256x8 .f32) (harg7 : arg7.IsWhole) (arg8 : Memref sig .tc .vmem S8x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x8 .f32) (harg11 : arg11.IsWhole) (hc0 : cond0_0 i) (hc1 : ¬cond0_1 i) (x0 : Vec F S2048x256 .f32) (x1 : Vec F S2048x8 .f32) (x2 : Vec F S256x1024 .f32) (x3 : Vec F S1x1024 .f32) (x4 : Vec F S256x8 .f32) (x5 : Vec F S8x1024 .f32) :
    sout0_A_0 c i arg3 harg3 arg4 harg4 arg5 harg5 arg6 harg6 arg7 harg7 arg8 harg8 arg9 harg9 arg10 harg10 arg11 harg11 hc0 hc1 x0 x1 x2 x3 x4 x5 = k0_pay4 x0 x2 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S2048x1024) hz]
  simp only [View.readAt_eq_ld, harg3.read_unread, harg4.read_unread, harg5.read_unread, harg6.read_unread, harg7.read_unread, harg8.read_unread, harg10.read_unread, harg11.read_unread, View.ld_unit_zero (S := S2048x256) hz, View.ld_unit_zero (S := S2048x8) hz, View.ld_unit_zero (S := S256x1024) hz, View.ld_unit_zero (S := S1x1024) hz, View.ld_unit_zero (S := S256x8) hz, View.ld_unit_zero (S := S8x1024) hz, View.ld_unit_zero (S := S2048x1024) hz, View.readCov_unit_zero (S := S2048x1024) _ hz, View.readCov_unit_zero (S := S2048x8) _ hz]

theorem haccA (c : Dev nD) (i : grid0.Coords) (arg3 : Memref sig .tc .vmem S2048x256 .f32) (harg3 : arg3.IsWhole) (arg4 : Memref sig .tc .vmem S2048x8 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S256x8 .f32) (harg7 : arg7.IsWhole) (arg8 : Memref sig .tc .vmem S8x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x8 .f32) (harg11 : arg11.IsWhole) (hc0 : cond0_0 i) (hc1 : ¬cond0_1 i) (x0 : Vec F S2048x256 .f32) (x1 : Vec F S2048x8 .f32) (x2 : Vec F S256x1024 .f32) (x3 : Vec F S1x1024 .f32) (x4 : Vec F S256x8 .f32) (x5 : Vec F S8x1024 .f32) :
    sout0_A_1 c i arg3 harg3 arg4 harg4 arg5 harg5 arg6 harg6 arg7 harg7 arg8 harg8 arg9 harg9 arg10 harg10 arg11 harg11 hc0 hc1 x0 x1 x2 x3 x4 x5 = k0_pay5 x0 x4 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S2048x8) hz]
  simp only [View.readAt_eq_ld, harg3.read_unread, harg4.read_unread, harg5.read_unread, harg6.read_unread, harg7.read_unread, harg8.read_unread, harg10.read_unread, harg11.read_unread, View.ld_unit_zero (S := S2048x256) hz, View.ld_unit_zero (S := S2048x8) hz, View.ld_unit_zero (S := S256x1024) hz, View.ld_unit_zero (S := S1x1024) hz, View.ld_unit_zero (S := S256x8) hz, View.ld_unit_zero (S := S8x1024) hz, View.ld_unit_zero (S := S2048x1024) hz, View.readCov_unit_zero (S := S2048x1024) _ hz, View.readCov_unit_zero (S := S2048x8) _ hz]

theorem accB (c : Dev nD) (i : grid0.Coords) (arg3 : Memref sig .tc .vmem S2048x256 .f32) (harg3 : arg3.IsWhole) (arg4 : Memref sig .tc .vmem S2048x8 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S256x8 .f32) (harg7 : arg7.IsWhole) (arg8 : Memref sig .tc .vmem S8x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x8 .f32) (harg11 : arg11.IsWhole) (hc0 : ¬cond0_0 i) (hc1 : ¬cond0_1 i) (x0 : Vec F S2048x256 .f32) (x1 : Vec F S2048x8 .f32) (x2 : Vec F S256x1024 .f32) (x3 : Vec F S1x1024 .f32) (x4 : Vec F S256x8 .f32) (x5 : Vec F S8x1024 .f32) (xs0 : Vec F S2048x1024 .f32) (xs1 : Vec F S2048x8 .f32) :
    sout0_B_0 c i arg3 harg3 arg4 harg4 arg5 harg5 arg6 harg6 arg7 harg7 arg8 harg8 arg9 harg9 arg10 harg10 arg11 harg11 hc0 hc1 x0 x1 x2 x3 x4 x5 xs0 xs1 = k0_pay4 x0 x2 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, harg10.read_unread, harg11.read_unread, View.ld_unit_zero (S := S2048x256) hz, View.ld_unit_zero (S := S2048x8) hz, View.ld_unit_zero (S := S256x1024) hz, View.ld_unit_zero (S := S1x1024) hz, View.ld_unit_zero (S := S256x8) hz, View.ld_unit_zero (S := S8x1024) hz, View.ld_unit_zero (S := S2048x1024) hz, View.readCov_unit_zero (S := S2048x1024) _ hz, View.readCov_unit_zero (S := S2048x8) _ hz]

theorem haccB (c : Dev nD) (i : grid0.Coords) (arg3 : Memref sig .tc .vmem S2048x256 .f32) (harg3 : arg3.IsWhole) (arg4 : Memref sig .tc .vmem S2048x8 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S256x8 .f32) (harg7 : arg7.IsWhole) (arg8 : Memref sig .tc .vmem S8x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x8 .f32) (harg11 : arg11.IsWhole) (hc0 : ¬cond0_0 i) (hc1 : ¬cond0_1 i) (x0 : Vec F S2048x256 .f32) (x1 : Vec F S2048x8 .f32) (x2 : Vec F S256x1024 .f32) (x3 : Vec F S1x1024 .f32) (x4 : Vec F S256x8 .f32) (x5 : Vec F S8x1024 .f32) (xs0 : Vec F S2048x1024 .f32) (xs1 : Vec F S2048x8 .f32) :
    sout0_B_1 c i arg3 harg3 arg4 harg4 arg5 harg5 arg6 harg6 arg7 harg7 arg8 harg8 arg9 harg9 arg10 harg10 arg11 harg11 hc0 hc1 x0 x1 x2 x3 x4 x5 xs0 xs1 = k0_pay5 x0 x4 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, harg10.read_unread, harg11.read_unread, View.ld_unit_zero (S := S2048x256) hz, View.ld_unit_zero (S := S2048x8) hz, View.ld_unit_zero (S := S256x1024) hz, View.ld_unit_zero (S := S1x1024) hz, View.ld_unit_zero (S := S256x8) hz, View.ld_unit_zero (S := S8x1024) hz, View.ld_unit_zero (S := S2048x1024) hz, View.readCov_unit_zero (S := S2048x1024) _ hz, View.readCov_unit_zero (S := S2048x8) _ hz]

theorem accC (c : Dev nD) (i : grid0.Coords) (arg3 : Memref sig .tc .vmem S2048x256 .f32) (harg3 : arg3.IsWhole) (arg4 : Memref sig .tc .vmem S2048x8 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S256x8 .f32) (harg7 : arg7.IsWhole) (arg8 : Memref sig .tc .vmem S8x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x8 .f32) (harg11 : arg11.IsWhole) (hc0 : ¬cond0_0 i) (hc1 : cond0_1 i) (x0 : Vec F S2048x256 .f32) (x1 : Vec F S2048x8 .f32) (x2 : Vec F S256x1024 .f32) (x3 : Vec F S1x1024 .f32) (x4 : Vec F S256x8 .f32) (x5 : Vec F S8x1024 .f32) (xs0 : Vec F S2048x1024 .f32) (xs1 : Vec F S2048x8 .f32) :
    sout0_C_0 c i arg3 harg3 arg4 harg4 arg5 harg5 arg6 harg6 arg7 harg7 arg8 harg8 arg9 harg9 arg10 harg10 arg11 harg11 hc0 hc1 x0 x1 x2 x3 x4 x5 xs0 xs1 = k0_pay4 x0 x2 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg10.read_unread, harg11.read_unread, View.ld_unit_zero (S := S2048x256) hz, View.ld_unit_zero (S := S2048x8) hz, View.ld_unit_zero (S := S256x1024) hz, View.ld_unit_zero (S := S1x1024) hz, View.ld_unit_zero (S := S256x8) hz, View.ld_unit_zero (S := S8x1024) hz, View.ld_unit_zero (S := S2048x1024) hz, View.readCov_unit_zero (S := S2048x1024) _ hz, View.readCov_unit_zero (S := S2048x8) _ hz]

theorem haccC (c : Dev nD) (i : grid0.Coords) (arg3 : Memref sig .tc .vmem S2048x256 .f32) (harg3 : arg3.IsWhole) (arg4 : Memref sig .tc .vmem S2048x8 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S256x8 .f32) (harg7 : arg7.IsWhole) (arg8 : Memref sig .tc .vmem S8x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x8 .f32) (harg11 : arg11.IsWhole) (hc0 : ¬cond0_0 i) (hc1 : cond0_1 i) (x0 : Vec F S2048x256 .f32) (x1 : Vec F S2048x8 .f32) (x2 : Vec F S256x1024 .f32) (x3 : Vec F S1x1024 .f32) (x4 : Vec F S256x8 .f32) (x5 : Vec F S8x1024 .f32) (xs0 : Vec F S2048x1024 .f32) (xs1 : Vec F S2048x8 .f32) :
    sout0_C_1 c i arg3 harg3 arg4 harg4 arg5 harg5 arg6 harg6 arg7 harg7 arg8 harg8 arg9 harg9 arg10 harg10 arg11 harg11 hc0 hc1 x0 x1 x2 x3 x4 x5 xs0 xs1 = k0_pay5 x0 x4 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg10.read_unread, harg11.read_unread, View.ld_unit_zero (S := S2048x256) hz, View.ld_unit_zero (S := S2048x8) hz, View.ld_unit_zero (S := S256x1024) hz, View.ld_unit_zero (S := S1x1024) hz, View.ld_unit_zero (S := S256x8) hz, View.ld_unit_zero (S := S8x1024) hz, View.ld_unit_zero (S := S2048x1024) hz, View.readCov_unit_zero (S := S2048x1024) _ hz, View.readCov_unit_zero (S := S2048x8) _ hz]

theorem outC (c : Dev nD) (i : grid0.Coords) (arg3 : Memref sig .tc .vmem S2048x256 .f32) (harg3 : arg3.IsWhole) (arg4 : Memref sig .tc .vmem S2048x8 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S256x8 .f32) (harg7 : arg7.IsWhole) (arg8 : Memref sig .tc .vmem S8x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x8 .f32) (harg11 : arg11.IsWhole) (hc0 : ¬cond0_0 i) (hc1 : cond0_1 i) (x0 : Vec F S2048x256 .f32) (x1 : Vec F S2048x8 .f32) (x2 : Vec F S256x1024 .f32) (x3 : Vec F S1x1024 .f32) (x4 : Vec F S256x8 .f32) (x5 : Vec F S8x1024 .f32) (xs0 : Vec F S2048x1024 .f32) (xs1 : Vec F S2048x8 .f32) :
    out0_C_6 c i arg3 harg3 arg4 harg4 arg5 harg5 arg6 harg6 arg7 harg7 arg8 harg8 arg9 harg9 arg10 harg10 arg11 harg11 hc0 hc1 x0 x1 x2 x3 x4 x5 xs0 xs1 = k0_pay6 (k0_pay5 x0 x4 xs1) x1 x5 (k0_pay4 x0 x2 xs0) x3 := by
  unfold out0_C_6
  rw [View.read_writes_eq_canon _ _ _ (cover0_C_6 c i arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg10.read_unread, harg11.read_unread, View.ld_unit_zero (S := S2048x256) hz, View.ld_unit_zero (S := S2048x8) hz, View.ld_unit_zero (S := S256x1024) hz, View.ld_unit_zero (S := S1x1024) hz, View.ld_unit_zero (S := S256x8) hz, View.ld_unit_zero (S := S8x1024) hz, View.ld_unit_zero (S := S2048x1024) hz, View.readCov_unit_zero (S := S2048x1024) _ hz, View.readCov_unit_zero (S := S2048x8) _ hz]

end Cert.KernelIdeal.LoraValue

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.KPay.lean ====
/-
  The body's payloads read at an index, at the ideal values.

  A change of float format is the identity there, and a matrix product into the zero accumulator is the plain sum of
  products over the contracted axis. So, at row `p` and column `q` of a block,
    the base step adds     Σ_{e<256} x(p, e) · w(e, q)            to what the accumulator held,
    the low-rank step adds Σ_{e<256} x(p, e) · v(e, r)            to what its accumulator held,
    the epilogue yields    (acc(p, q) + b(0, q)) + (Σ_{r<8} (h(p, r) · codes(p, r)) · u(r, q)) · 2 ,
  and the reset payloads are zero.
-/
import proofs.«180259_j57226144252251_1_alg».proof.Proof.Gen.KernelIdeal.Skeleton
import proofs.«180259_j57226144252251_1_alg».proof.Proof.LibPlainDot
import Idealize.ShloMosaic.Lib.Pipeline.Value

noncomputable section

open Idealize.ShloMosaic Idealize.ShloMosaic.ValueIdx

namespace Cert.KernelIdeal.LoraPay

open Cert.KernelIdeal Cert.KernelIdeal.Gen

/-- The zero the base accumulator is reset to. -/
theorem pay1_apply (j : S2048x1024.Idx) : k0_pay1 (F := Ideal) j = 0 := by
  unfold k0_pay1
  simp only [shapeCast_self]
  exact Ideal.ofBits_zero_f32

/-- The zero the low-rank accumulator is reset to. -/
theorem pay2_apply (j : S2048x8.Idx) : k0_pay2 (F := Ideal) j = 0 := by
  unfold k0_pay2
  simp only [shapeCast_self]
  exact Ideal.ofBits_zero_f32

/-- The base accumulation step at `(p, q)`. -/
theorem pay4_apply (x0 : Vec Ideal S2048x256 .f32) (x2 : Vec Ideal S256x1024 .f32) (v9 : Vec Ideal S2048x1024 .f32)
    (p : Fin 2048) (q : Fin 1024) :
    k0_pay4 x0 x2 v9 (ix2 p q) = v9 (ix2 p q) + ∑ e : Fin 256, x0 (ix2 p e) * x2 (ix2 e q) := by
  unfold k0_pay4 k0_pay3
  simp only [shapeCast_self]
  refine congrArg (v9 (ix2 p q) + ·) ?_
  exact PlainDot.matmul_zero_apply 2048 256 1024 none _ _ (ix2 p q)

/-- The low-rank accumulation step at `(p, r)`. -/
theorem pay5_apply (x0 : Vec Ideal S2048x256 .f32) (x4 : Vec Ideal S256x8 .f32) (v17 : Vec Ideal S2048x8 .f32)
    (p : Fin 2048) (r : Fin 8) :
    k0_pay5 x0 x4 v17 (ix2 p r) = v17 (ix2 p r) + ∑ e : Fin 256, x0 (ix2 p e) * x4 (ix2 e r) := by
  unfold k0_pay5 k0_pay3
  simp only [shapeCast_self]
  refine congrArg (v17 (ix2 p r) + ·) ?_
  exact PlainDot.matmul_zero_apply 2048 256 8 none _ _ (ix2 p r)

/-- The epilogue at `(p, q)`. -/
theorem pay6_apply (v26 v27 : Vec Ideal S2048x8 .f32) (v31 : Vec Ideal S8x1024 .f32) (v37 : Vec Ideal S2048x1024 .f32)
    (v38 : Vec Ideal S1x1024 .f32) (p : Fin 2048) (q : Fin 1024) :
    k0_pay6 v26 v27 v31 v37 v38 (ix2 p q)
      = (v37 (ix2 p q) + v38 (ix2 (0 : Fin 1) q))
        + (∑ r : Fin 8, (v26 (ix2 p r) * v27 (ix2 p r)) * v31 (ix2 r q)) * Ideal.ofBits .f32 0x40000000#32 := by
  unfold k0_pay6
  simp only [shapeCast_self]
  refine congrArg₂ (· + ·) (congrArg (v37 (ix2 p q) + ·) ?_) (congrArg (· * Ideal.ofBits .f32 0x40000000#32) ?_)
  · exact broadcastTo_apply v38 broadcasts_S1x1024_S2048x1024 (ix2 p q) (ix2 (0 : Fin 1) q) (fun a => match a with
      | ⟨0, _⟩ => by show (0 : ℕ) = if (1 : ℕ) = 1 then 0 else p.val; rw [if_pos rfl]
      | ⟨1, _⟩ => by show q.val = if (1024 : ℕ) = 1 then 0 else q.val; rw [if_neg (by decide)])
  · exact PlainDot.matmul_zero_apply 2048 8 1024 none _ _ (ix2 p q)

end Cert.KernelIdeal.LoraPay

end
-- ==== Proof.KBlocks.lean ====
/-
  The input blocks of a grid point, read at an index as entries of the six arguments.

  The grid has 8 × 4 × 16 points, numbered row-major: point `t` has row block `t / 64`, column block `t / 16 % 4` and
  reduction step `t % 16`. Before the grid runs, the activations and the codes are flattened to [16384, ·], the two
  weight matrices `W` and `U` are transposed, and the bias is given a leading unit axis. So, with
  `R = 2048·(t / 64) + p`, `C = 1024·(t / 16 % 4) + q` and `d = 256·(t % 16) + e`,
    the activation block holds x[R, d], the codes block codes[R, r], the W block Wᵀ[d, C], the bias block bias[C],
    the V block V[d, r] and the U block Uᵀ[r, C].
-/
import proofs.«180259_j57226144252251_1_alg».proof.Proof.Gen.KernelIdeal.Frame
import proofs.«180259_j57226144252251_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.LoraBlocks

open Cert.KernelIdeal Cert.KernelIdeal.Gen Cert.Lora

variable (m : (ℓ : Loc nD τ sig) → Buf (Elt Ideal) ℓ)

/-! ## The six arguments -/

abbrev aX (c : Dev nD) : A3.Idx → EReal := m ((c : Thread nD τ).loc main_arg0)
abbrev aC (c : Dev nD) : C3.Idx → EReal := m ((c : Thread nD τ).loc main_arg1)
abbrev aW (c : Dev nD) : M2.Idx → EReal := m ((c : Thread nD τ).loc main_arg2)
abbrev aB (c : Dev nD) : B1.Idx → EReal := m ((c : Thread nD τ).loc main_arg3)
abbrev aV (c : Dev nD) : L2.Idx → EReal := m ((c : Thread nD τ).loc main_arg4)
abbrev aU (c : Dev nD) : L2.Idx → EReal := m ((c : Thread nD τ).loc main_arg5)

/-! ## The input blocks of a point, at their literal types -/

abbrev xblk (c : Dev nD) (t : Fin cfg0.N) : Vec Ideal S2048x256 .f32 := iblk m c 0 t
abbrev cblk (c : Dev nD) (t : Fin cfg0.N) : Vec Ideal S2048x8 .f32 := iblk m c 1 t
abbrev wblk (c : Dev nD) (t : Fin cfg0.N) : Vec Ideal S256x1024 .f32 := iblk m c 2 t
abbrev bblk (c : Dev nD) (t : Fin cfg0.N) : Vec Ideal S1x1024 .f32 := iblk m c 3 t
abbrev vblk (c : Dev nD) (t : Fin cfg0.N) : Vec Ideal S256x8 .f32 := iblk m c 4 t
abbrev ublk (c : Dev nD) (t : Fin cfg0.N) : Vec Ideal S8x1024 .f32 := iblk m c 5 t

/-! ## What the host operations before the grid leave -/

theorem V_v0 (c : Dev nD) : (V m c main_v0 : S16384x4096.Idx → EReal) = shapeCast S16384x4096 (aX m c) shapeCasts_S4x4096x4096_S16384x4096 := by
  show StableHlo.after hostOps0 (fun b => m (c, b)) (Proc.devRef .tc main_v0) = _
  after_results
  rfl

theorem V_v1 (c : Dev nD) : (V m c main_v1 : S16384x8.Idx → EReal) = shapeCast S16384x8 (aC m c) shapeCasts_S4x4096x8_S16384x8 := by
  show StableHlo.after hostOps0 (fun b => m (c, b)) (Proc.devRef .tc main_v1) = _
  after_results
  rfl

theorem V_v2 (c : Dev nD) : (V m c main_v2 : S4096x4096.Idx → EReal) = transpose S4096x4096 [1, 0] (aW m c) transposes_S4096x4096_S4096x4096_1_0 := by
  show StableHlo.after hostOps0 (fun b => m (c, b)) (Proc.devRef .tc main_v2) = _
  after_results

theorem V_v3 (c : Dev nD) : (V m c main_v3 : S8x4096.Idx → EReal) = transpose S8x4096 [1, 0] (aU m c) transposes_S4096x8_S8x4096_1_0 := by
  show StableHlo.after hostOps0 (fun b => m (c, b)) (Proc.devRef .tc main_v3) = _
  after_results

theorem V_v4 (c : Dev nD) : (V m c main_v4 : S1x4096.Idx → EReal) = shapeCast S1x4096 (aB m c) shapeCasts_S4096_S1x4096 := by
  show StableHlo.after hostOps0 (fun b => m (c, b)) (Proc.devRef .tc main_v4) = _
  after_results
  rfl

/-! ## The blocks at an index -/

theorem xblk_apply (c : Dev nD) (t : Fin cfg0.N) (p : Fin 2048) (e : Fin 256) :
    xblk m c t (ix2 p e) = xAt (aX m c) (2048 * (t.val / 64) + p.val) (256 * (t.val % 16) + e.val) := by
  have hN : t.val < 512 := lt_of_lt_of_eq t.isLt (show cfg0.N = 512 from N_0)
  obtain ⟨h0, h1⟩ := (by decide +kernel : ∀ t : Fin grid0.N, win0_0.index t (0 : Fin 2) = t.val / 64 ∧ win0_0.index t (1 : Fin 2) = t.val % 16) t
  unfold xblk iblk
  rw [View.read_apply]
  show V m c main_v0 _ = _
  rw [V_v0]
  unfold xAt
  rw [dif_pos ⟨by omega, by omega⟩]
  refine shapeCast_apply _ _ _ _ ?_
  refine (Shape.rowMajor_val_three (d := ![4, 4096, 4096]) _).trans ?_
  refine Eq.trans ?_ (Shape.rowMajor_val_two (d := ![16384, 4096]) _).symm
  show ((2048 * (t.val / 64) + p.val) / 4096 * 4096 + (2048 * (t.val / 64) + p.val) % 4096) * 4096 + (256 * (t.val % 16) + e.val)
    = (win0_0.index t 0 * 2048 + 1 * p.val) * 4096 + (win0_0.index t 1 * 256 + 1 * e.val)
  rw [h0, h1]; omega

theorem cblk_apply (c : Dev nD) (t : Fin cfg0.N) (p : Fin 2048) (r : Fin 8) :
    cblk m c t (ix2 p r) = cAt (aC m c) (2048 * (t.val / 64) + p.val) r.val := by
  have hN : t.val < 512 := lt_of_lt_of_eq t.isLt (show cfg0.N = 512 from N_0)
  obtain ⟨h0, h1⟩ := (by decide +kernel : ∀ t : Fin grid0.N, win0_1.index t (0 : Fin 2) = t.val / 64 ∧ win0_1.index t (1 : Fin 2) = 0) t
  unfold cblk iblk
  rw [View.read_apply]
  show V m c main_v1 _ = _
  rw [V_v1]
  unfold cAt
  rw [dif_pos ⟨by omega, r.isLt⟩]
  refine shapeCast_apply _ _ _ _ ?_
  refine (Shape.rowMajor_val_three (d := ![4, 4096, 8]) _).trans ?_
  refine Eq.trans ?_ (Shape.rowMajor_val_two (d := ![16384, 8]) _).symm
  show ((2048 * (t.val / 64) + p.val) / 4096 * 4096 + (2048 * (t.val / 64) + p.val) % 4096) * 8 + r.val
    = (win0_1.index t 0 * 2048 + 1 * p.val) * 8 + (win0_1.index t 1 * 8 + 1 * r.val)
  rw [h0, h1]; omega

theorem wblk_apply (c : Dev nD) (t : Fin cfg0.N) (e : Fin 256) (q : Fin 1024) :
    wblk m c t (ix2 e q) = wAt (aW m c) (256 * (t.val % 16) + e.val) (1024 * (t.val / 16 % 4) + q.val) := by
  have hN : t.val < 512 := lt_of_lt_of_eq t.isLt (show cfg0.N = 512 from N_0)
  obtain ⟨h0, h1⟩ := (by decide +kernel : ∀ t : Fin grid0.N, win0_2.index t (0 : Fin 2) = t.val % 16 ∧ win0_2.index t (1 : Fin 2) = t.val / 16 % 4) t
  unfold wblk iblk
  rw [View.read_apply]
  show V m c main_v2 _ = _
  rw [V_v2]
  unfold wAt
  rw [dif_pos ⟨by omega, by omega⟩]
  refine transpose_apply _ _ _ _ _ (fun b => match b with
    | ⟨0, _⟩ => by
        show 256 * (t.val % 16) + e.val = win0_2.index t 0 * 256 + 1 * e.val
        rw [h0]; omega
    | ⟨1, _⟩ => by
        show 1024 * (t.val / 16 % 4) + q.val = win0_2.index t 1 * 1024 + 1 * q.val
        rw [h1]; omega)

theorem bblk_apply (c : Dev nD) (t : Fin cfg0.N) (z : Fin 1) (q : Fin 1024) :
    bblk m c t (ix2 z q) = bAt (aB m c) (1024 * (t.val / 16 % 4) + q.val) := by
  have hN : t.val < 512 := lt_of_lt_of_eq t.isLt (show cfg0.N = 512 from N_0)
  obtain ⟨h0, h1⟩ := (by decide +kernel : ∀ t : Fin grid0.N, win0_3.index t (0 : Fin 2) = 0 ∧ win0_3.index t (1 : Fin 2) = t.val / 16 % 4) t
  have hzv : z.val = 0 := by have := z.isLt; omega
  unfold bblk iblk
  rw [View.read_apply]
  show V m c main_v4 _ = _
  rw [V_v4]
  unfold bAt
  rw [dif_pos (by omega)]
  refine shapeCast_apply _ _ _ _ ?_
  refine (Shape.rowMajor_val_one (d := ![4096]) _).trans ?_
  refine Eq.trans ?_ (Shape.rowMajor_val_two (d := ![1, 4096]) _).symm
  show 1024 * (t.val / 16 % 4) + q.val = (win0_3.index t 0 * 1 + 1 * z.val) * 4096 + (win0_3.index t 1 * 1024 + 1 * q.val)
  rw [h0, h1, hzv]; omega

theorem vblk_apply (c : Dev nD) (t : Fin cfg0.N) (e : Fin 256) (r : Fin 8) :
    vblk m c t (ix2 e r) = vAt (aV m c) (256 * (t.val % 16) + e.val) r.val := by
  have hN : t.val < 512 := lt_of_lt_of_eq t.isLt (show cfg0.N = 512 from N_0)
  obtain ⟨h0, h1⟩ := (by decide +kernel : ∀ t : Fin grid0.N, win0_4.index t (0 : Fin 2) = t.val % 16 ∧ win0_4.index t (1 : Fin 2) = 0) t
  unfold vblk iblk
  rw [View.read_apply]
  show V m c main_arg4 _ = _
  rw [V_main_arg4]
  unfold vAt
  rw [dif_pos ⟨by omega, r.isLt⟩]
  refine congrArg (aV m c) (funext fun a => Fin.ext ?_)
  match a with
  | ⟨0, _⟩ => show win0_4.index t 0 * 256 + 1 * e.val = 256 * (t.val % 16) + e.val; rw [h0]; omega
  | ⟨1, _⟩ => show win0_4.index t 1 * 8 + 1 * r.val = r.val; rw [h1]; omega

theorem ublk_apply (c : Dev nD) (t : Fin cfg0.N) (r : Fin 8) (q : Fin 1024) :
    ublk m c t (ix2 r q) = uAt (aU m c) r.val (1024 * (t.val / 16 % 4) + q.val) := by
  have hN : t.val < 512 := lt_of_lt_of_eq t.isLt (show cfg0.N = 512 from N_0)
  obtain ⟨h0, h1⟩ := (by decide +kernel : ∀ t : Fin grid0.N, win0_5.index t (0 : Fin 2) = 0 ∧ win0_5.index t (1 : Fin 2) = t.val / 16 % 4) t
  unfold ublk iblk
  rw [View.read_apply]
  show V m c main_v3 _ = _
  rw [V_v3]
  unfold uAt
  rw [dif_pos ⟨r.isLt, by omega⟩]
  refine transpose_apply _ _ _ _ _ (fun b => match b with
    | ⟨0, _⟩ => by
        show r.val = win0_5.index t 0 * 8 + 1 * r.val
        rw [h0]; omega
    | ⟨1, _⟩ => by
        show 1024 * (t.val / 16 % 4) + q.val = win0_5.index t 1 * 1024 + 1 * q.val
        rw [h1]; omega)

/-! ## The partial products of a point -/

/-- The base partial product of point `t` at `(p, q)`: run `t % 16` of row `R` of `x` against column `C` of `Wᵀ`. -/
theorem xw_dot (c : Dev nD) (t : Fin cfg0.N) (p : Fin 2048) (q : Fin 1024) :
    ∑ e : Fin 256, xblk m c t (ix2 p e) * wblk m c t (ix2 e q)
      = ∑ e : Fin 256, xAt (aX m c) (2048 * (t.val / 64) + p.val) (256 * (t.val % 16) + e.val)
          * wAt (aW m c) (256 * (t.val % 16) + e.val) (1024 * (t.val / 16 % 4) + q.val) :=
  Finset.sum_congr rfl fun e _ => by rw [xblk_apply, wblk_apply]

/-- The low-rank partial product of point `t` at `(p, r)`. -/
theorem xv_dot (c : Dev nD) (t : Fin cfg0.N) (p : Fin 2048) (r : Fin 8) :
    ∑ e : Fin 256, xblk m c t (ix2 p e) * vblk m c t (ix2 e r)
      = ∑ e : Fin 256, xAt (aX m c) (2048 * (t.val / 64) + p.val) (256 * (t.val % 16) + e.val)
          * vAt (aV m c) (256 * (t.val % 16) + e.val) r.val :=
  Finset.sum_congr rfl fun e _ => by rw [xblk_apply, vblk_apply]

end Cert.KernelIdeal.LoraBlocks

end
-- ==== Proof.KInv.lean ====
/-
  What the two accumulators hold after each grid point, and what a finishing point stores.

  Along one (row block, column block) pair the reduction step k runs from 0 to 15. After step k the base accumulator
  holds, at (p, q), the first 256·(k + 1) terms of row R of x against column C of Wᵀ, and the low-rank accumulator, at
  (p, r), the first 256·(k + 1) terms of row R of x against column r of V: at k = 0 the reset value is zero and one run of
  256 terms is added, at each later step one more run is added to what the previous point left (the previous point is
  in the same pair of blocks, since k > 0). At k = 15 both are the full sums over 4096 terms, and the output block is
  (base + bias) + (Σ_r (lowrank · codes) · Uᵀ) · 2, which is the specification at (R, C).
-/
import proofs.«180259_j57226144252251_1_alg».proof.Proof.KPieces
import proofs.«180259_j57226144252251_1_alg».proof.Proof.KPay
import proofs.«180259_j57226144252251_1_alg».proof.Proof.KBlocks

noncomputable section

open Idealize.ShloMosaic Idealize.ShloMosaic.TcCoe Idealize.SL.Sem Idealize.ShloMosaic.ValueIdx

namespace Cert.KernelIdeal.LoraInv

open Cert.KernelIdeal Cert.KernelIdeal.Gen Cert.Lora Cert.KernelIdeal.LoraValue Cert.KernelIdeal.LoraPay Cert.KernelIdeal.LoraBlocks

variable (m : (ℓ : Loc nD τ sig) → Buf (Elt Ideal) ℓ)

/-- The accumulators after a point with k = 0, as the step payloads over the reset values. -/
theorem scr_first (c : Dev nD) (t : Fin cfg0.N) (h0 : t.val % 16 = 0) (h1 : ¬t.val % 16 = 15) :
    (outsAt0 m c t.val t.isLt).2.1 = k0_pay4 (xblk m c t) (wblk m c t) (k0_pay1 (F := Ideal))
    ∧ (outsAt0 m c t.val t.isLt).2.2 = k0_pay5 (xblk m c t) (vblk m c t) (k0_pay2 (F := Ideal)) := by
  rw [outsAt0_A m c t h0 h1]
  dsimp only
  exact ⟨accA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), haccA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)⟩

/-- The accumulators after a point with k > 0, as the step payloads over what the point before left. -/
theorem scr_next (c : Dev nD) (t : Fin cfg0.N) (h0 : ¬t.val % 16 = 0) :
    (outsAt0 m c t.val t.isLt).2.1 = k0_pay4 (xblk m c t) (wblk m c t) (outsAt0 m c (t.val - 1) (Nat.lt_of_le_of_lt (Nat.sub_le _ _) t.isLt)).2.1
    ∧ (outsAt0 m c t.val t.isLt).2.2 = k0_pay5 (xblk m c t) (vblk m c t) (outsAt0 m c (t.val - 1) (Nat.lt_of_le_of_lt (Nat.sub_le _ _) t.isLt)).2.2 := by
  by_cases h1 : t.val % 16 = 15
  · rw [outsAt0_C m c t h0 h1]
    dsimp only
    exact ⟨accC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2,
      haccC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2⟩
  · rw [outsAt0_B m c t h0 h1]
    dsimp only
    exact ⟨accB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2,
      haccB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2⟩

/-- The output block after a point with k = 15, as the epilogue payload over the two accumulators that point leaves. -/
theorem out_last (c : Dev nD) (t : Fin cfg0.N) (h0 : ¬t.val % 16 = 0) (h1 : t.val % 16 = 15) :
    (outsAt0 m c t.val t.isLt).1
      = k0_pay6 (outsAt0 m c t.val t.isLt).2.2 (cblk m c t) (ublk m c t) (outsAt0 m c t.val t.isLt).2.1 (bblk m c t) := by
  rw [outsAt0_C m c t h0 h1]
  dsimp only
  refine (outC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2).trans ?_
  rw [accC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2,
    haccC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2]

/-- One accumulation step at point `t`, over accumulators holding the first `t % 16` runs. -/
theorem step (c : Dev nD) (t : Fin cfg0.N) (a0 : Vec Ideal S2048x1024 .f32) (a1 : Vec Ideal S2048x8 .f32)
    (hW : ∀ (p : Fin 2048) (q : Fin 1024), a0 (ix2 p q)
      = dotW (aX m c) (aW m c) (2048 * (t.val / 64) + p.val) (1024 * (t.val / 16 % 4) + q.val) (256 * (t.val % 16)))
    (hV : ∀ (p : Fin 2048) (r : Fin 8), a1 (ix2 p r)
      = dotV (aX m c) (aV m c) (2048 * (t.val / 64) + p.val) r.val (256 * (t.val % 16))) :
    (∀ (p : Fin 2048) (q : Fin 1024), k0_pay4 (xblk m c t) (wblk m c t) a0 (ix2 p q)
      = dotW (aX m c) (aW m c) (2048 * (t.val / 64) + p.val) (1024 * (t.val / 16 % 4) + q.val) (256 * (t.val % 16 + 1)))
    ∧ (∀ (p : Fin 2048) (r : Fin 8), k0_pay5 (xblk m c t) (vblk m c t) a1 (ix2 p r)
      = dotV (aX m c) (aV m c) (2048 * (t.val / 64) + p.val) r.val (256 * (t.val % 16 + 1))) := by
  refine ⟨fun p q => ?_, fun p r => ?_⟩
  · refine (pay4_apply (xblk m c t) (wblk m c t) a0 p q).trans ?_
    rw [xw_dot]
    exact dotW_step _ _ _ _ _ _ (hW p q)
  · refine (pay5_apply (xblk m c t) (vblk m c t) a1 p r).trans ?_
    rw [xv_dot]
    exact dotV_step _ _ _ _ _ _ (hV p r)

/-- THE ACCUMULATION: after point `n` the accumulators hold the first `256·(n % 16 + 1)` terms of their sums. -/
theorem acc_inv (c : Dev nD) (n : ℕ) : ∀ (hn : n < cfg0.N),
    (∀ (p : Fin 2048) (q : Fin 1024), (outsAt0 m c n hn).2.1 (ix2 p q)
      = dotW (aX m c) (aW m c) (2048 * (n / 64) + p.val) (1024 * (n / 16 % 4) + q.val) (256 * (n % 16 + 1)))
    ∧ (∀ (p : Fin 2048) (r : Fin 8), (outsAt0 m c n hn).2.2 (ix2 p r)
      = dotV (aX m c) (aV m c) (2048 * (n / 64) + p.val) r.val (256 * (n % 16 + 1))) := by
  induction n using Nat.strong_induction_on with
  | _ n ih =>
    intro hn
    have hN : n < 512 := lt_of_lt_of_eq hn (show cfg0.N = 512 from N_0)
    by_cases h0 : n % 16 = 0
    · have h1 : ¬n % 16 = 15 := by omega
      obtain ⟨e1, e2⟩ := scr_first m c ⟨n, hn⟩ h0 h1
      have st := step m c ⟨n, hn⟩ (k0_pay1 (F := Ideal)) (k0_pay2 (F := Ideal))
        (fun p q => (pay1_apply _).trans (by
          show (0 : EReal) = dotW (aX m c) (aW m c) (2048 * (n / 64) + p.val) (1024 * (n / 16 % 4) + q.val) (256 * (n % 16))
          rw [h0]; exact (dotW_zero _ _ _ _).symm))
        (fun p r => (pay2_apply _).trans (by
          show (0 : EReal) = dotV (aX m c) (aV m c) (2048 * (n / 64) + p.val) r.val (256 * (n % 16))
          rw [h0]; exact (dotV_zero _ _ _ _).symm))
      exact ⟨fun p q => (congrFun e1 (ix2 p q)).trans (st.1 p q), fun p r => (congrFun e2 (ix2 p r)).trans (st.2 p r)⟩
    · obtain ⟨e1, e2⟩ := scr_next m c ⟨n, hn⟩ h0
      obtain ⟨i1, i2⟩ := ih (n - 1) (by omega) (Nat.lt_of_le_of_lt (Nat.sub_le _ _) hn)
      have q1 : (n - 1) / 64 = n / 64 := by omega
      have q2 : (n - 1) / 16 % 4 = n / 16 % 4 := by omega
      have q3 : (n - 1) % 16 + 1 = n % 16 := by omega
      rw [q1, q2, q3] at i1
      rw [q1, q3] at i2
      have st := step m c ⟨n, hn⟩ _ _ i1 i2
      exact ⟨fun p q => (congrFun e1 (ix2 p q)).trans (st.1 p q), fun p r => (congrFun e2 (ix2 p r)).trans (st.2 p r)⟩

/-- THE OUTPUT BLOCK of a finishing point, at `(p, q)`: the specification at row `2048·(t / 64) + p`, column
    `1024·(t / 16 % 4) + q`. -/
theorem out_apply (c : Dev nD) (t : Fin cfg0.N) (h1 : t.val % 16 = 15) (p : Fin 2048) (q : Fin 1024) :
    (outsAt0 m c t.val t.isLt).1 (ix2 p q)
      = out (aX m c) (aC m c) (aW m c) (aB m c) (aV m c) (aU m c) (2048 * (t.val / 64) + p.val) (1024 * (t.val / 16 % 4) + q.val) := by
  have h0 : ¬t.val % 16 = 0 := by omega
  obtain ⟨i1, i2⟩ := acc_inv m c t.val t.isLt
  rw [show 256 * (t.val % 16 + 1) = 4096 by omega] at i1 i2
  refine (congrFun (out_last m c t h0 h1) (ix2 p q)).trans ?_
  refine (pay6_apply _ (cblk m c t) (ublk m c t) _ (bblk m c t) p q).trans ?_
  rw [i1 p q, bblk_apply]
  refine Eq.trans ?_ (out_fin _ _ _ _ _ _ _ _)
  refine congrArg (fun s => (dotW (aX m c) (aW m c) (2048 * (t.val / 64) + p.val) (1024 * (t.val / 16 % 4) + q.val) 4096
      + bAt (aB m c) (1024 * (t.val / 16 % 4) + q.val)) + s * Ideal.ofBits .f32 0x40000000#32) ?_
  exact Finset.sum_congr rfl fun r _ => by rw [i2 p r, cblk_apply, ublk_apply]

end Cert.KernelIdeal.LoraInv

end
-- ==== Proof.KRun.lean ====
/-
  The kernel program's result array.

  Only the points with k = 15 write the output block back; the block of point `t` is rows `2048·(t / 64) …`, columns
  `1024·(t / 16 % 4) …` of the flattened [16384, 4096] result, and what is written there is the specification at those
  rows and columns (`out_apply`). The 32 such blocks tile the array: index (R, C) lies in the block of the point with
  row block R / 2048, column block C / 1024 and k = 15. The host operation after the grid views the [16384, 4096] array
  as [4, 4096, 4096]: entry (b, s, o) is entry (4096·b + s, o), which is the specification `G` at (b, s, o).
-/
import proofs.«180259_j57226144252251_1_alg».proof.Proof.KInv

noncomputable section

open Idealize.ShloMosaic Idealize.ShloMosaic.TcCoe Idealize.SL.Sem Idealize.ShloMosaic.ValueIdx
open Idealize.ShloMosaic.Pipeline (Dat)

namespace Cert.KernelIdeal.LoraRun

open Cert.KernelIdeal Cert.KernelIdeal.Gen Cert.Lora Cert.KernelIdeal.LoraBlocks Cert.KernelIdeal.LoraInv

variable (m : (ℓ : Loc nD τ sig) → Buf (Elt Ideal) ℓ) (ρ : Dev nD → PrngReg)

/-- The flattened [16384, 4096] result: the specification at (row, column). -/
def flat (c : Dev nD) : S16384x4096.Idx → EReal :=
  fun j => out (aX m c) (aC m c) (aW m c) (aB m c) (aV m c) (aU m c) (j 0).val (j 1).val

/-- What a finishing point writes back is its block of the flattened result. -/
theorem flushed_eq (c : Dev nD) (t : Fin cfg0.N) (hf : (cfg0.win 6).flush t = true) :
    (dats m 0 c).flushed 6 t = ((cfg0.win 6).blk t).view.read (Elt Ideal) (flat m c) := by
  have h1 : t.val % 16 = 15 := (flush0_6 t).mp hf
  have hN : t.val < 512 := lt_of_lt_of_eq t.isLt (show cfg0.N = 512 from N_0)
  obtain ⟨i0, i1⟩ := (by decide +kernel : ∀ t : Fin grid0.N, win0_6.index t (0 : Fin 2) = t.val / 64 ∧ win0_6.index t (1 : Fin 2) = t.val / 16 % 4) t
  show (cfg0.win 6).cut (grid0.coords t) ((dats m 0 c).after 6 t) = _
  rw [after0_6]
  funext j
  obtain ⟨p, q, rfl⟩ : ∃ (p : Fin 2048) (q : Fin 1024), j = ix2 p q := ⟨j 0, j 1, eq_ix2 j⟩
  show (outsAt0 m c t.val t.isLt).1 (ix2 p q) = flat m c (((cfg0.win 6).blk t).view.emb (ix2 p q))
  rw [out_apply m c t h1 p q]
  unfold flat
  have e0 : ((((cfg0.win 6).blk t).view.emb (ix2 p q)) 0).val = 2048 * (t.val / 64) + p.val := by
    show win0_6.index t 0 * 2048 + 1 * p.val = _
    rw [i0]; omega
  have e1 : ((((cfg0.win 6).blk t).view.emb (ix2 p q)) 1).val = 1024 * (t.val / 16 % 4) + q.val := by
    show win0_6.index t 1 * 1024 + 1 * q.val = _
    rw [i1]; omega
  rw [e0, e1]

/-- An index of the array is in point `t`'s block iff each coordinate is in the block's range on its axis. -/
theorem mem_blk (t : Fin cfg0.N) (i : S16384x4096.Idx) :
    i ∈ ((cfg0.win 6).blk t).view.set ↔ ∀ a : Fin 2, win0_6.index t a * S2048x1024.size a ≤ (i a).val ∧ (i a).val < win0_6.index t a * S2048x1024.size a + S2048x1024.size a := by
  show i ∈ ((View.whole main_v5).slice (win0_6.rect t)).set ↔ _
  rw [View.set_slice_whole, Rect.mem_set_unit]
  exact Iff.rfl

/-- Every index of the result array lies in the block of a finishing point. -/
theorem cover (i : S16384x4096.Idx) : ∃ t : Fin cfg0.N, (cfg0.win 6).flush t = true ∧ i ∈ ((cfg0.win 6).blk t).view.set := by
  have h0 : (i 0).val < 16384 := (i 0).isLt
  have h1 : (i 1).val < 4096 := (i 1).isLt
  have hN : cfg0.N = 512 := N_0
  obtain ⟨tn, htn⟩ : ∃ tn : ℕ, tn = ((i 0).val / 2048 * 4 + (i 1).val / 1024) * 16 + 15 := ⟨_, rfl⟩
  have hlt : tn < cfg0.N := by rw [hN]; omega
  obtain ⟨i0, i1⟩ := (by decide +kernel : ∀ t : Fin grid0.N, win0_6.index t (0 : Fin 2) = t.val / 64 ∧ win0_6.index t (1 : Fin 2) = t.val / 16 % 4) ⟨tn, hlt⟩
  refine ⟨⟨tn, hlt⟩, (flush0_6 _).mpr (by show tn % 16 = 15; omega), ?_⟩
  rw [mem_blk]
  intro a
  match a with
  | ⟨0, _⟩ =>
    show win0_6.index ⟨tn, hlt⟩ (0 : Fin 2) * 2048 ≤ (i 0).val ∧ (i 0).val < win0_6.index ⟨tn, hlt⟩ (0 : Fin 2) * 2048 + 2048
    rw [i0]; show tn / 64 * 2048 ≤ (i 0).val ∧ (i 0).val < tn / 64 * 2048 + 2048; omega
  | ⟨1, _⟩ =>
    show win0_6.index ⟨tn, hlt⟩ (1 : Fin 2) * 1024 ≤ (i 1).val ∧ (i 1).val < win0_6.index ⟨tn, hlt⟩ (1 : Fin 2) * 1024 + 1024
    rw [i1]; show tn / 16 % 4 * 1024 ≤ (i 1).val ∧ (i 1).val < tn / 16 % 4 * 1024 + 1024; omega

/-- The result array after the grid is the flattened result. -/
theorem final (c : Dev nD) : (dats m 0 c).arrAt 6 cfg0.N = flat m c :=
  (dats m 0 c).arrAt_eq_of_cover 6 (flat m c) (flushed_eq m c) cover

/-- The program's result, after the host operation that follows the grid, is the specification. -/
theorem tail_v6 (c : Dev nD) :
    Pipeline.afterTail₀ cfgs (dats m) 0 (V0 m) [hostOps1] c main_v6
      = G (aX m c) (aC m c) (aW m c) (aB m c) (aV m c) (aU m c) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5) = flat m c :=
    (Pipeline.withArrays_arr spec0 launch0.win.arr_inj c _ _ 6).trans (final m c)
  funext j
  obtain ⟨b, s, o, rfl⟩ : ∃ (b : Fin 4) (s : Fin 4096) (o : Fin 4096), j = ix3 b s o := ⟨j 0, j 1, j 2, eq_ix3 j⟩
  show shapeCast S4x4096x4096 (Pipeline.withArrays (cfgs 0).spec c (V0 m c) (fun w => (dats m 0 c).arrAt w (cfgs 0).N) (Proc.devRef .tc main_v5))
    shapeCasts_S16384x4096_S4x4096x4096 (ix3 b s o) = _
  rw [hw]
  refine (shapeCast_apply _ _ _ (ix2 ⟨4096 * b.val + s.val, by have := b.isLt; have := s.isLt; omega⟩ o) ?_).trans ?_
  · refine (Shape.rowMajor_val_two (d := ![16384, 4096]) _).trans ?_
    refine Eq.trans ?_ (Shape.rowMajor_val_three (d := ![4, 4096, 4096]) _).symm
    show (4096 * b.val + s.val) * 4096 + o.val = (b.val * 4096 + s.val) * 4096 + o.val
    omega
  · rfl

/-- THE RUN, READ: every weakly fair execution of the kernel program terminates with the result array at the
    specification of the arguments and the arguments unchanged. -/
theorem run : θ_run defs (onTc (τ := τ) (main (F := Ideal))) ⟨m, fun _ => 0, ρ⟩ fun r => ∀ c : Dev nD,
      r.2.mem ((c.tc : Thread nD τ).loc main_v6) = G (aX m c) (aC m c) (aW m c) (aB m c) (aV m c) (aU m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v6 (Pipeline.mem_restRefs_of main_v6 (by decide) (by decide))).trans (tail_v6 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c))⟩)
    (run_main m ρ)

end Cert.KernelIdeal.LoraRun

end
-- ==== Proof.lean ====
/-
  A base linear layer with a fused low-rank update, on a tiled grid, against its einsum reference, over the extended reals.

  Both programs compute, at (b, s, o),
    (Σ_d x[b, s, d] · W[o, d] + bias[o]) + (Σ_r ((Σ_d x[b, s, d] · V[d, r]) · codes[b, s, r]) · U[o, r]) · 2 .
  The kernel works on the flattened [16384, 4096] activations in 2048 × 1024 output blocks and splits both sums over d
  into 16 runs of 256 terms, accumulated along the grid's last axis; the low-rank product, the bias and the scaling are
  applied once, at the last run. Splitting a finite sum into consecutive runs uses only that addition on the extended
  reals is commutative and associative, so the inputs' finiteness is never used. The idealization rewrote nothing.
-/
import proofs.«180259_j57226144252251_1_alg».proof.Defs
import proofs.«180259_j57226144252251_1_alg».proof.Proof.Gen.Kernel
import proofs.«180259_j57226144252251_1_alg».proof.Proof.Gen.Kernel.Skeleton
import proofs.«180259_j57226144252251_1_alg».proof.Proof.Gen.Kernel.Launch
import proofs.«180259_j57226144252251_1_alg».proof.Proof.Gen.Kernel.Points
import proofs.«180259_j57226144252251_1_alg».proof.Proof.Gen.Kernel.Frame
import proofs.«180259_j57226144252251_1_alg».proof.Proof.Gen.KernelIdeal
import proofs.«180259_j57226144252251_1_alg».proof.Proof.Gen.KernelIdeal.Skeleton
import proofs.«180259_j57226144252251_1_alg».proof.Proof.Gen.KernelIdeal.Launch
import proofs.«180259_j57226144252251_1_alg».proof.Proof.Gen.KernelIdeal.Points
import proofs.«180259_j57226144252251_1_alg».proof.Proof.Gen.KernelIdeal.Frame
import proofs.«180259_j57226144252251_1_alg».proof.Proof.Gen.ReferenceIdeal
import proofs.«180259_j57226144252251_1_alg».proof.Proof.Gen.Pre_finite_inputs
import proofs.«180259_j57226144252251_1_alg».proof.Proof.RefValue
import proofs.«180259_j57226144252251_1_alg».proof.Proof.KRun
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

/-- Both programs end with the specification `Cert.Lora.G` of arguments that agree. -/
theorem algebraic : Cert.algebraic_KernelIdeal_ReferenceIdeal := by
  intro m ρ m' ρ' _ hagree
  refine ⟨fun c => Cert.Lora.G (Cert.KernelIdeal.LoraBlocks.aX m c) (Cert.KernelIdeal.LoraBlocks.aC m c) (Cert.KernelIdeal.LoraBlocks.aW m c)
    (Cert.KernelIdeal.LoraBlocks.aB m c) (Cert.KernelIdeal.LoraBlocks.aV m c) (Cert.KernelIdeal.LoraBlocks.aU m c),
    Cert.KernelIdeal.LoraRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_eq_G,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
